-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000 .f32) (main_arg2 : FVec F S128x128 .f32) (main_arg3 : FVec F S128 .f32) (main_arg4 : FVec F S128x128 .f32) (main_arg5 : FVec F S128 .f32) (main_arg6 : IVec S600000 32) (main_arg7 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 78
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S_, .f32⟩
  | .hbm, ⟨9, _⟩ => ⟨S600000, .f32⟩
  | .hbm, ⟨10, _⟩ => ⟨S_, .f32⟩
  | .hbm, ⟨11, _⟩ => ⟨S50000, .f32⟩
  | .hbm, ⟨12, _⟩ => ⟨S600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S600000x1, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S600000x1, .f32⟩
  | .hbm, ⟨68, _⟩ => ⟨S600000x128, .f32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S_, .f32⟩
  | .hbm, ⟨9, _⟩ => ⟨S600000, .f32⟩
  | .hbm, ⟨10, _⟩ => ⟨S_, .f32⟩
  | .hbm, ⟨11, _⟩ => ⟨S50000, .f32⟩
  | .hbm, ⟨12, _⟩ => ⟨S600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S600000x1, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S600000x1, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_cst : Ref sig .tc := ⟨.hbm, 58, rfl⟩
abbrev main_call2_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DenseRef.lean ====
/-
  One dense layer of the graph convolution in the host program's spelling, and what it holds at an entry.

  For a node-feature matrix `a` [50000, 128], a weight matrix `w` [128, 128] and a bias `b` [128] the layer is
  `a · w + b` with the bias laid along every row; on the extended reals the entry at row `r`, column `j` is
  `(∑ k, a (r, k) · w (k, j)) + b j`. The rectifier after the first layer is the entrywise maximum with zero.
-/
import proofs.«115925_j180388626680_1_alg».proof.Proof.Gen.ReferenceIdeal.Read
import Idealize.ShloMosaic.Lib.KernelVsHost

noncomputable section

namespace Cert.GraphConv

open Cert.ReferenceIdeal Cert.ReferenceIdeal.Gen Cert.ReferenceIdeal.Read
open Idealize.ShloMosaic Idealize.ShloMosaic.TcCoe Idealize.ShloMosaic.ValueIdx

/-- `a · w + b`: the host's matrix product, then the bias as a one-row matrix laid down the rows. -/
def dense (a : FVec Ideal S50000x128 .f32) (w : FVec Ideal S128x128 .f32)
    (b : FVec Ideal S128 .f32) : FVec Ideal S50000x128 .f32 :=
  addf (Host.dotGeneral dot_S50000x128_S128x128_S50000x128_1_0_0_1_n_n none a w)
    (broadcastInDim S50000x128 ![0, 1] bcast_S1x128_S50000x128_0_1 (broadcastInDim S1x128 ![1] bcast_S128_S1x128_1 b))

/-- The entrywise maximum with zero. -/
def relu (y : FVec Ideal S50000x128 .f32) : FVec Ideal S50000x128 .f32 :=
  maximumf y (broadcastInDim S50000x128 ![] bcast_S_S50000x128 (constant (F := Ideal) S_ .f32 0x00000000#32))

/-- The host's product at row `r`, column `j`: the sum over the shared axis. -/
theorem dot_apply (a : FVec Ideal S50000x128 .f32) (w : FVec Ideal S128x128 .f32)
    (r : Fin 50000) (j : Fin 128) :
    Host.dotGeneral dot_S50000x128_S128x128_S50000x128_1_0_0_1_n_n none a w (ix2 r j)
      = ∑ k : Fin 128, a (ix2 r k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun x => Fin.ext (by
    match x with
    | ⟨0, _⟩ => exact lhs_main_v32_0 _ _
    | ⟨1, _⟩ => exact (lhs_main_v32_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun x => Fin.ext (by
    match x with
    | ⟨0, _⟩ => exact (rhs_main_v32_0 _ _).trans hk
    | ⟨1, _⟩ => exact rhs_main_v32_1 _ _)
  rw [el, er]

/-- The bias laid down the rows, at row `r`, column `j`, is `b j`. -/
theorem bias_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  rw [broadcastInDim_oneRow_apply]
  refine broadcastInDim_apply ![1] bcast_S128_S1x128_1 b (ix2 (0 : Fin 1) j) (ix1 j) ?_
  intro x
  match x with
  | ⟨0, _⟩ => show j.val = if (128 : Nat) = 1 then 0 else j.val; rw [if_neg (by decide)]

/-- The layer at an entry. -/
theorem dense_apply (a : FVec Ideal S50000x128 .f32) (w : FVec Ideal S128x128 .f32)
    (b : FVec Ideal S128 .f32) (r : Fin 50000) (j : Fin 128) :
    dense a w b (ix2 r j) = (∑ k : Fin 128, a (ix2 r k) * w (ix2 k j)) + b (ix1 j) := by
  unfold dense
  rw [addf_apply, dot_apply, bias_apply]

/-- The rectifier at an entry. -/
theorem relu_apply (y : FVec Ideal S50000x128 .f32) (i : S50000x128.Idx) :
    relu y i = max (y i) (Ideal.ofBits .f32 0x00000000#32) := rfl

end Cert.GraphConv

end
-- ==== Proof.Spec.lean ====
/-
  The whole computation as one function of the arguments.

  `normOf idx` is a degree norm: count how many edges name each node in `idx` (scatter-add ones), clip the count below
  at one, raise to the power −1/2. `agg h ns nd` is one layer's aggregate of the node features `h`: scale the rows by
  the source-side norm `ns`, gather the rows at the edges' sources (a negative index wrapped once), weight them,
  scatter-add them at the edges' destinations, scale by the destination-side norm `nd`. These are the host operations
  both programs share; nothing below opens them. The result of both programs is
  `dense (agg (relu (dense (agg x) W1 b1))) W2 b2`.
-/
import proofs.«115925_j180388626680_1_alg».proof.Proof.DenseRef

noncomputable section

namespace Cert.GraphConv

open Cert.ReferenceIdeal Cert.ReferenceIdeal.Gen Cert.ReferenceIdeal.Read
open Idealize.ShloMosaic Idealize.ShloMosaic.TcCoe

/-- The degree norm of the nodes over the edge endpoints `idx`: `max(1, count)^(−1/2)`. -/
def normOf (idx : IVec S600000 32) : FVec Ideal S50000 .f32 :=
  Host.powf (maximumf (broadcastInDim S50000 ![] bcast_S_S50000 (id (constant (F := Ideal) S_ .f32 0x3F800000#32)))
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 idx)
        (broadcastInDim S600000 ![] bcast_S_S600000 (constant (F := Ideal) S_ .f32 0x3F800000#32))))
    (broadcastInDim S50000 ![] bcast_S_S50000 (constant (F := Ideal) S_ .f32 0xBF000000#32))

/-- One layer's aggregate of the node features `h` over the weighted edges, with the two norms given. -/
def agg (h : FVec Ideal S50000x128 .f32) (ns nd : FVec Ideal S50000 .f32) (ew : FVec Ideal S600000 .f32)
    (src dst : IVec S600000 32) : FVec Ideal S50000x128 .f32 :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (mulf
        (Host.gather gather_S50000x128_S600000x1_S600000x128_1_0_n_n_0_1_1128
          (mulf h (broadcastInDim S50000x128 ![0, 1] bcast_S50000x1_S50000x128_0_1 (broadcastInDim S50000x1 ![0] bcast_S50000_S50000x1_0 ns)))
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 50000#32))) src)))
        (broadcastInDim S600000x128 ![0, 1] bcast_S600000x1_S600000x128_0_1 (broadcastInDim S600000x1 ![0] bcast_S600000_S600000x1_0 ew))))
    (broadcastInDim S50000x128 ![0, 1] bcast_S50000x1_S50000x128_0_1 (broadcastInDim S50000x1 ![0] bcast_S50000_S50000x1_0 nd))

/-- Two graph-convolution layers, the first rectified. -/
def twoLayers (x : FVec Ideal S50000x128 .f32) (ew : FVec Ideal S600000 .f32) (w1 : FVec Ideal S128x128 .f32)
    (b1 : FVec Ideal S128 .f32) (w2 : FVec Ideal S128x128 .f32) (b2 : FVec Ideal S128 .f32)
    (src dst : IVec S600000 32) : FVec Ideal S50000x128 .f32 :=
  dense (agg (relu (dense (agg x (normOf src) (normOf dst) ew src dst) w1 b1)) (normOf src) (normOf dst) ew src dst) w2 b2

/-- The reference's result term is that function: operation by operation the same. -/
theorem reference_eq (x : FVec Ideal S50000x128 .f32) (ew : FVec Ideal S600000 .f32) (w1 : FVec Ideal S128x128 .f32)
    (b1 : FVec Ideal S128 .f32) (w2 : FVec Ideal S128x128 .f32) (b2 : FVec Ideal S128 .f32)
    (src dst : IVec S600000 32) :
    val_main_v59 (F := Ideal) x ew w1 b1 w2 b2 src dst = twoLayers x ew w1 b1 w2 b2 src dst := rfl

end Cert.GraphConv

end
-- ==== Proof.HostChain.lean ====
/-
  The kernel program's stretches of host operations, each read at the buffers later items need.

  Before the first region the host counts the edges at each node twice (by source, by destination), clips each count
  below at one and raises it to the power −1/2 — the two degree norms — and computes the first aggregate; between the
  regions it computes the second aggregate. Each stretch is read here from ANY contents `U` of the buffers at its
  start: a buffer it writes as that buffer's function of the buffers the stretch reads, a buffer it does not write as
  it was. The two shared host functions are spelled with this program's own shape records and are the
  specification's functions.
-/
import proofs.«115925_j180388626680_1_alg».proof.Proof.Gen.KernelIdeal.Frame
import proofs.«115925_j180388626680_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## The shared host functions, with this program's records -/

/-- The degree norm over the edge endpoints `idx`: `max(1, count)^(−1/2)`. -/
def normOfK (idx : IVec S600000 32) : FVec Ideal S50000 .f32 :=
  Host.powf (maximumf (broadcastInDim S50000 ![] bcast_S_S50000 (id (constant (F := Ideal) S_ .f32 0x3F800000#32)))
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 idx)
        (broadcastInDim S600000 ![] bcast_S_S600000 (constant (F := Ideal) S_ .f32 0x3F800000#32))))
    (broadcastInDim S50000 ![] bcast_S_S50000 (constant (F := Ideal) S_ .f32 0xBF000000#32))

/-- One layer's aggregate of the node features `h` over the weighted edges, with the two norms given. -/
def aggK (h : FVec Ideal S50000x128 .f32) (ns nd : FVec Ideal S50000 .f32) (ew : FVec Ideal S600000 .f32)
    (src dst : IVec S600000 32) : FVec Ideal S50000x128 .f32 :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (mulf
        (Host.gather gather_S50000x128_S600000x1_S600000x128_1_0_n_n_0_1_1128
          (mulf h (broadcastInDim S50000x128 ![0, 1] bcast_S50000x1_S50000x128_0_1 (broadcastInDim S50000x1 ![0] bcast_S50000_S50000x1_0 ns)))
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 50000#32))) src)))
        (broadcastInDim S600000x128 ![0, 1] bcast_S600000x1_S600000x128_0_1 (broadcastInDim S600000x1 ![0] bcast_S600000_S600000x1_0 ew))))
    (broadcastInDim S50000x128 ![0, 1] bcast_S50000x1_S50000x128_0_1 (broadcastInDim S50000x1 ![0] bcast_S50000_S50000x1_0 nd))

/-- They are the specification's functions: the same operations over equal shape records. -/
theorem normOfK_eq (idx : IVec S600000 32) : normOfK idx = Cert.GraphConv.normOf idx := rfl
theorem aggK_eq (h : FVec Ideal S50000x128 .f32) (ns nd : FVec Ideal S50000 .f32) (ew : FVec Ideal S600000 .f32)
    (src dst : IVec S600000 32) : aggK h ns nd ew src dst = Cert.GraphConv.agg h ns nd ew src dst := rfl

variable (U : Valuation τ sig (Elt Ideal))

/-! ## The stretches that compute the two norms -/

/-- The edge counts by source and by destination, and the clip's bound. -/
theorem s0_v3 : after hostOps0 U (Proc.devRef .tc main_v3)
    = Host.scatterAdd scatter_S50000_S600000x1_S600000_n_0_0_1
        (broadcastInDim S50000 ![] bcast_S_S50000 (constant (F := Ideal) S_ .f32 0x00000000#32))
        (broadcastInDim S600000x1 ![0] bcast_S600000_S600000x1_0 (U (Proc.devRef .tc main_arg6)))
        (broadcastInDim S600000 ![] bcast_S_S600000 (constant (F := Ideal) S_ .f32 0x3F800000#32)) := by
  dsimp only [hostOps0]
  after_results
theorem s0_v6 : after hostOps0 U (Proc.devRef .tc main_v6)
    = Host.scatterAdd scatter_S50000_S600000x1_S600000_n_0_0_1
        (broadcastInDim S50000 ![] bcast_S_S50000 (constant (F := Ideal) S_ .f32 0x00000000#32))
        (broadcastInDim S600000x1 ![0] bcast_S600000_S600000x1_0 (U (Proc.devRef .tc main_arg7)))
        (broadcastInDim S600000 ![] bcast_S_S600000 (constant (F := Ideal) S_ .f32 0x3F800000#32)) := by
  dsimp only [hostOps0]
  after_results
theorem s0_cst2 : after hostOps0 U (Proc.devRef .tc main_cst_2) = constant (F := Ideal) S_ .f32 0x3F800000#32 := by
  dsimp only [hostOps0]
  after_results

/-- The first clip: the count by source, bounded below. It leaves the count by destination as it was. -/
theorem s1_v7 : after hostOps0_1 U (Proc.devRef .tc main_v7)
    = maximumf (F := Ideal) (φ := .f32) (broadcastInDim S50000 ![] bcast_S_S50000 (id (U (Proc.devRef .tc main_cst_2) : FVec Ideal S_ .f32)))
        (U (Proc.devRef .tc main_v3) : FVec Ideal S50000 .f32) := by
  dsimp only [hostOps0_1]
  after_results
  rfl
theorem s1_v6 : after hostOps0_1 U (Proc.devRef .tc main_v6) = U (Proc.devRef .tc main_v6) := by
  dsimp only [hostOps0_1]
  after_results

/-- The source-side norm's last step, and the second clip's bound. It leaves the count by destination as it was. -/
theorem s2_v9 : after hostOps0_2 U (Proc.devRef .tc main_v9)
    = Host.powf (U (Proc.devRef .tc main_v7)) (broadcastInDim S50000 ![] bcast_S_S50000 (constant (F := Ideal) S_ .f32 0xBF000000#32)) := by
  dsimp only [hostOps0_2]
  after_results
theorem s2_cst4 : after hostOps0_2 U (Proc.devRef .tc main_cst_4) = constant (F := Ideal) S_ .f32 0x3F800000#32 := by
  dsimp only [hostOps0_2]
  after_results
theorem s2_v6 : after hostOps0_2 U (Proc.devRef .tc main_v6) = U (Proc.devRef .tc main_v6) := by
  dsimp only [hostOps0_2]
  after_results

/-- The second clip: the count by destination, bounded below. It leaves the source-side norm as it was. -/
theorem s3_v10 : after hostOps0_3 U (Proc.devRef .tc main_v10)
    = maximumf (F := Ideal) (φ := .f32) (broadcastInDim S50000 ![] bcast_S_S50000 (id (U (Proc.devRef .tc main_cst_4) : FVec Ideal S_ .f32)))
        (U (Proc.devRef .tc main_v6) : FVec Ideal S50000 .f32) := by
  dsimp only [hostOps0_3]
  after_results
  rfl
theorem s3_v9 : after hostOps0_3 U (Proc.devRef .tc main_v9) = U (Proc.devRef .tc main_v9) := by
  dsimp only [hostOps0_3]
  after_results

/-! ## The stretch that ends at the first region -/

/-- The last step of the destination-side norm: the clipped count to the power −1/2. -/
theorem stretchA_nd : after hostOps0_4 U (Proc.devRef .tc main_v12)
    = Host.powf (U (Proc.devRef .tc main_v10)) (broadcastInDim S50000 ![] bcast_S_S50000 (constant (F := Ideal) S_ .f32 0xBF000000#32)) := by
  dsimp only [hostOps0_4]
  after_results

/-- The first aggregate from the contents at the stretch's start. -/
theorem stretchA_feat : after hostOps0_4 U (Proc.devRef .tc main_v31)
    = aggK (U (Proc.devRef .tc main_arg0)) (U (Proc.devRef .tc main_v9))
        (Host.powf (U (Proc.devRef .tc main_v10)) (broadcastInDim S50000 ![] bcast_S_S50000 (constant (F := Ideal) S_ .f32 0xBF000000#32)))
        (U (Proc.devRef .tc main_arg1)) (U (Proc.devRef .tc main_arg6)) (U (Proc.devRef .tc main_arg7)) := by
  dsimp only [hostOps0_4]
  after_results_simp
  rfl

/-- It leaves the source-side norm and the arguments as they were. -/
theorem stretchA_v9 : after hostOps0_4 U (Proc.devRef .tc main_v9) = U (Proc.devRef .tc main_v9) := by
  dsimp only [hostOps0_4]
  after_results
theorem stretchA_arg0 : after hostOps0_4 U (Proc.devRef .tc main_arg0) = U (Proc.devRef .tc main_arg0) := by
  dsimp only [hostOps0_4]
  after_results
theorem stretchA_arg1 : after hostOps0_4 U (Proc.devRef .tc main_arg1) = U (Proc.devRef .tc main_arg1) := by
  dsimp only [hostOps0_4]
  after_results
theorem stretchA_arg6 : after hostOps0_4 U (Proc.devRef .tc main_arg6) = U (Proc.devRef .tc main_arg6) := by
  dsimp only [hostOps0_4]
  after_results
theorem stretchA_arg7 : after hostOps0_4 U (Proc.devRef .tc main_arg7) = U (Proc.devRef .tc main_arg7) := by
  dsimp only [hostOps0_4]
  after_results

/-! ## The stretch between the regions -/

/-- The second aggregate from the contents at the first region's exit. -/
theorem stretchB_feat : after hostOps1 U (Proc.devRef .tc main_v51)
    = aggK (U (Proc.devRef .tc main_v32)) (U (Proc.devRef .tc main_v9)) (U (Proc.devRef .tc main_v12))
        (U (Proc.devRef .tc main_arg1)) (U (Proc.devRef .tc main_arg6)) (U (Proc.devRef .tc main_arg7)) := by
  dsimp only [hostOps1]
  after_results_simp
  rfl

/-- It leaves every argument as it was. -/
theorem stretchB_arg0 : after hostOps1 U (Proc.devRef .tc main_arg0) = U (Proc.devRef .tc main_arg0) := by
  dsimp only [hostOps1]
  after_results
theorem stretchB_arg1 : after hostOps1 U (Proc.devRef .tc main_arg1) = U (Proc.devRef .tc main_arg1) := by
  dsimp only [hostOps1]
  after_results
theorem stretchB_arg2 : after hostOps1 U (Proc.devRef .tc main_arg2) = U (Proc.devRef .tc main_arg2) := by
  dsimp only [hostOps1]
  after_results
theorem stretchB_arg3 : after hostOps1 U (Proc.devRef .tc main_arg3) = U (Proc.devRef .tc main_arg3) := by
  dsimp only [hostOps1]
  after_results
theorem stretchB_arg6 : after hostOps1 U (Proc.devRef .tc main_arg6) = U (Proc.devRef .tc main_arg6) := by
  dsimp only [hostOps1]
  after_results
theorem stretchB_arg7 : after hostOps1 U (Proc.devRef .tc main_arg7) = U (Proc.devRef .tc main_arg7) := by
  dsimp only [hostOps1]
  after_results
theorem stretchB_arg4 : after hostOps1 U (Proc.devRef .tc main_arg4) = U (Proc.devRef .tc main_arg4) := by
  dsimp only [hostOps1]
  after_results
theorem stretchB_arg5 : after hostOps1 U (Proc.devRef .tc main_arg5) = U (Proc.devRef .tc main_arg5) := by
  dsimp only [hostOps1]
  after_results

end Cert.KernelIdeal.Chain

end
-- ==== Proof.HostEntry.lean ====
/-
  The buffers the regions and the later host operations read, at the first region's entry.

  No host operation and no region writes an argument (a region reads its weights and bias through input windows, which
  it leaves as entered): the generated frame has each argument at the last boundary as launched, so it is as launched
  at the earlier boundaries too. The two degree norms are the shared norm function of the two edge-endpoint arguments: the count, the
  clip and the power, one stretch after the other.
-/
import proofs.«115925_j180388626680_1_alg».proof.Proof.HostChain

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments are as launched -/

theorem entry1_arg0 (c : Dev nD) : W5 m ρ c (Proc.devRef .tc main_arg0) = m ((c : Thread nD τ).loc main_arg0) :=
  ((W6_of_ne m ρ c main_arg0 (by decide)).symm.trans ((stretchB_arg0 (W6 m ρ c)).symm.trans (W8_of_ne m ρ c main_arg0 (by decide)).symm)).trans (W8_main_arg0 m ρ c)
theorem entry1_arg1 (c : Dev nD) : W5 m ρ c (Proc.devRef .tc main_arg1) = m ((c : Thread nD τ).loc main_arg1) :=
  ((W6_of_ne m ρ c main_arg1 (by decide)).symm.trans ((stretchB_arg1 (W6 m ρ c)).symm.trans (W8_of_ne m ρ c main_arg1 (by decide)).symm)).trans (W8_main_arg1 m ρ c)
theorem entry1_arg2 (c : Dev nD) : W5 m ρ c (Proc.devRef .tc main_arg2) = m ((c : Thread nD τ).loc main_arg2) :=
  have hw : W6 m ρ c (Proc.devRef .tc main_arg2) = W5 m ρ c (Proc.devRef .tc main_arg2) :=
    (W6_arr m ρ c 1).trans (((dat0 (V5 m ρ) c).arrAt_in 1 rfl _).trans (A_eq0 (V5 m ρ) c 1))
  (hw.symm.trans ((stretchB_arg2 (W6 m ρ c)).symm.trans (W8_of_ne m ρ c main_arg2 (by decide)).symm)).trans (W8_main_arg2 m ρ c)
theorem entry1_arg3 (c : Dev nD) : W5 m ρ c (Proc.devRef .tc main_arg3) = m ((c : Thread nD τ).loc main_arg3) :=
  have hw : W6 m ρ c (Proc.devRef .tc main_arg3) = W5 m ρ c (Proc.devRef .tc main_arg3) :=
    (W6_arr m ρ c 2).trans (((dat0 (V5 m ρ) c).arrAt_in 2 rfl _).trans (A_eq0 (V5 m ρ) c 2))
  (hw.symm.trans ((stretchB_arg3 (W6 m ρ c)).symm.trans (W8_of_ne m ρ c main_arg3 (by decide)).symm)).trans (W8_main_arg3 m ρ c)
theorem entry1_arg6 (c : Dev nD) : W5 m ρ c (Proc.devRef .tc main_arg6) = m ((c : Thread nD τ).loc main_arg6) :=
  ((W6_of_ne m ρ c main_arg6 (by decide)).symm.trans ((stretchB_arg6 (W6 m ρ c)).symm.trans (W8_of_ne m ρ c main_arg6 (by decide)).symm)).trans (W8_main_arg6 m ρ c)
theorem entry1_arg7 (c : Dev nD) : W5 m ρ c (Proc.devRef .tc main_arg7) = m ((c : Thread nD τ).loc main_arg7) :=
  ((W6_of_ne m ρ c main_arg7 (by decide)).symm.trans ((stretchB_arg7 (W6 m ρ c)).symm.trans (W8_of_ne m ρ c main_arg7 (by decide)).symm)).trans (W8_main_arg7 m ρ c)

/-- At the second region's entry its weights and bias are as launched. -/
theorem entry2_arg4 (c : Dev nD) : W7 m ρ c (Proc.devRef .tc main_arg4) = m ((c : Thread nD τ).loc main_arg4) :=
  have hw : W8 m ρ c (Proc.devRef .tc main_arg4) = W7 m ρ c (Proc.devRef .tc main_arg4) :=
    (W8_arr m ρ c 1).trans (((dat1 (V7 m ρ) c).arrAt_in 1 rfl _).trans (A_eq1 (V7 m ρ) c 1))
  hw.symm.trans (W8_main_arg4 m ρ c)
theorem entry2_arg5 (c : Dev nD) : W7 m ρ c (Proc.devRef .tc main_arg5) = m ((c : Thread nD τ).loc main_arg5) :=
  have hw : W8 m ρ c (Proc.devRef .tc main_arg5) = W7 m ρ c (Proc.devRef .tc main_arg5) :=
    (W8_arr m ρ c 2).trans (((dat1 (V7 m ρ) c).arrAt_in 2 rfl _).trans (A_eq1 (V7 m ρ) c 2))
  hw.symm.trans (W8_main_arg5 m ρ c)

/-! ## The two norms -/

/-- The source-side norm: the count by source (first stretch), clipped (second), to the power −1/2 (third), kept by the
    two stretches after. -/
theorem entry1_ns (c : Dev nD) : W5 m ρ c (Proc.devRef .tc main_v9) = normOfK (m ((c : Thread nD τ).loc main_arg6)) := by
  have e6 : W0 m ρ c (Proc.devRef .tc main_arg6) = m ((c : Thread nD τ).loc main_arg6) := rfl
  refine (stretchA_v9 (W4 m ρ c)).trans ?_
  refine (s3_v9 (W3 m ρ c)).trans ?_
  refine (s2_v9 (W2 m ρ c)).trans ?_
  rw [show W2 m ρ c (Proc.devRef .tc main_v7) = _ from s1_v7 (W1 m ρ c)]
  rw [show W1 m ρ c (Proc.devRef .tc main_cst_2) = _ from s0_cst2 (W0 m ρ c),
    show W1 m ρ c (Proc.devRef .tc main_v3) = _ from s0_v3 (W0 m ρ c), e6]
  rfl

/-- The destination-side norm: the count by destination (first stretch), kept by the next two, clipped (fourth), to the
    power −1/2 (fifth). -/
theorem entry1_nd (c : Dev nD) : W5 m ρ c (Proc.devRef .tc main_v12) = normOfK (m ((c : Thread nD τ).loc main_arg7)) := by
  have e7 : W0 m ρ c (Proc.devRef .tc main_arg7) = m ((c : Thread nD τ).loc main_arg7) := rfl
  refine (stretchA_nd (W4 m ρ c)).trans ?_
  rw [show W4 m ρ c (Proc.devRef .tc main_v10) = _ from s3_v10 (W3 m ρ c)]
  rw [show W3 m ρ c (Proc.devRef .tc main_cst_4) = _ from s2_cst4 (W2 m ρ c),
    show W3 m ρ c (Proc.devRef .tc main_v6) = _ from (s2_v6 (W2 m ρ c)).trans ((s1_v6 (W1 m ρ c)).trans (s0_v6 (W0 m ρ c))), e7]
  rfl

end Cert.KernelIdeal.Chain

end
-- ==== Proof.DenseBlock.lean ====
/-
  The kernel body's stored value, read at an entry of its [5000, 128] block.

  Both layers' bodies compute, from a row block `x` [5000, 128], the weights `w` [128, 128] and the bias `b` [128],
  the product of `x` and `w` (the casts to the narrower format are the identity on the extended reals, and the
  accumulator is the zero splat) plus the bias laid along every row; the first layer's body then takes the maximum
  with zero. At row `p`, column `j` of the block that is `(∑ k, x (p, k) · w (k, j)) + b j`.
-/
import proofs.«115925_j180388626680_1_alg».proof.Proof.Gen.KernelIdeal.Skeleton
import Idealize.ShloMosaic.Lib.KernelVsHost

noncomputable section

namespace Cert.KernelIdeal.DenseBlock

open Cert.KernelIdeal Cert.KernelIdeal.Gen
open Idealize.ShloMosaic Idealize.ShloMosaic.TcCoe Idealize.ShloMosaic.ValueIdx

/-! ## The block product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The pieces at an entry -/

/-- The block product into the zero splat, at row `p`, column `j`: the sum over the shared axis. -/
theorem blockdot_apply (x : FVec Ideal S5000x128 .f32) (w : FVec Ideal S128x128 .f32) (p : Fin 5000) (j : Fin 128) :
    matmul dot_S5000x128_S128x128_S5000x128_1_0_0_1_n_n none
        (truncf .bf16 (shapeCast S5000x128 x shapeCasts_S5000x128_S5000x128) bitsLt_bf16_f32)
        (truncf .bf16 w bitsLt_bf16_f32) (constant S5000x128 .f32 0x00000000#32) (ix2 p j)
      = ∑ k : Fin 128, x (ix2 p k) * w (ix2 k j) := by
  rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

/-- The bias cast to one row and laid down the block's rows, at row `p`, column `j`, is `b j`. -/
theorem blockbias_apply (b : FVec Ideal S128 .f32) (p : Fin 5000) (j : Fin 128) :
    broadcastTo S5000x128 (shapeCast S1x128 b shapeCasts_S128_S1x128) broadcasts_S1x128_S5000x128 (ix2 p j) = b (ix1 j) := by
  refine (broadcastTo_apply (shapeCast S1x128 b shapeCasts_S128_S1x128) broadcasts_S1x128_S5000x128 (ix2 p j) (ix2 (0 : Fin 1) j) ?_).trans ?_
  · intro a
    match a with
    | ⟨0, _⟩ => rfl
    | ⟨1, _⟩ => show j.val = if (128 : Nat) = 1 then 0 else j.val; rw [if_neg (by decide)]
  · exact shapeCast_apply b shapeCasts_S128_S1x128 (ix2 (0 : Fin 1) j) (ix1 j) (by
      rw [Shape.rowMajor_val_two, Shape.rowMajor_val_one]; show j.val = 0 * 128 + j.val; omega)

/-! ## The two bodies' stored values at an entry -/

/-- The second layer's body: the product plus the bias. -/
theorem pay_layer2_apply (x : Vec Ideal S5000x128 .f32) (w : Vec Ideal S128x128 .f32) (b : Vec Ideal S128 .f32) (p : Fin 5000) (j : Fin 128) :
    k1_pay1 (F := Ideal) x w b (ix2 p j) = (∑ k : Fin 128, x (ix2 p k) * w (ix2 k j)) + b (ix1 j) := by
  unfold k1_pay1
  refine (addf_apply _ _ (ix2 p j)).trans ?_
  refine (congrArg (· + _) (blockdot_apply x w p j)).trans ?_
  exact congrArg (_ + ·) (blockbias_apply b p j)

/-- The first layer's body: the maximum of that with zero. -/
theorem pay_layer1_apply (x : Vec Ideal S5000x128 .f32) (w : Vec Ideal S128x128 .f32) (b : Vec Ideal S128 .f32) (p : Fin 5000) (j : Fin 128) :
    k0_pay1 (F := Ideal) x w b (ix2 p j)
      = max ((∑ k : Fin 128, x (ix2 p k) * w (ix2 k j)) + b (ix1 j)) (Ideal.ofBits .f32 0x00000000#32) := by
  unfold k0_pay1
  refine (maximumf_apply _ _ (ix2 p j)).trans ?_
  refine congrArg₂ max ?_ rfl
  exact (addf_apply _ _ (ix2 p j)).trans
    ((congrArg (· + _) (blockdot_apply x w p j)).trans (congrArg (_ + ·) (blockbias_apply b p j)))

end Cert.KernelIdeal.DenseBlock

end
-- ==== Proof.Layers.lean ====
/-
  Each kernel region's output array after its run is one dense layer of the arrays the region was entered with.

  The grid has ten points; point `t` reads rows `5000·t … 5000·t + 4999` of the node-feature array, the whole weight
  matrix and the whole bias, and writes the same rows of the output. So what point `t` writes back is rows
  `5000·t …` of `a · w + b` (with the maximum with zero after it in the first layer), and the ten row blocks cover
  the output array: it ends holding that one function of the entry contents.
-/
import proofs.«115925_j180388626680_1_alg».proof.Proof.Gen.KernelIdeal.Frame
import proofs.«115925_j180388626680_1_alg».proof.Proof.DenseRef
import proofs.«115925_j180388626680_1_alg».proof.Proof.DenseBlock
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The second layer's region -/

/-- The arrays the second region is entered with, at their literal types. -/
abbrev feat2 (c : Dev nD) : FVec Ideal S50000x128 .f32 := V c main_v51
abbrev wts2 (c : Dev nD) : FVec Ideal S128x128 .f32 := V c main_arg4
abbrev bias2 (c : Dev nD) : FVec Ideal S128 .f32 := V c main_arg5

/-- The index maps over the grid: the row-block index of the features and of the output is the point, every other
    block index is zero. -/
theorem idx2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of point `t`'s feature block is row `5000·t + p` of the array. -/
theorem feat2_read (c : Dev nD) (t : Fin cfg1.N) (p : Fin 5000) (k : Fin 128) (r : Fin 50000) (hr : r.val = t.val * 5000 + p.val) :
    iblk1 V c 0 t (ix2 p k) = feat2 V c (ix2 r k) := by
  show V c main_v51 (((cfg1.win 0).blk t).view.emb (ix2 p k)) = V c main_v51 (ix2 r k)
  refine congrArg (V c main_v51) ?_
  obtain ⟨e0, e1, -⟩ := idx2 t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Every point's weight block is the whole matrix. -/
theorem wts2_read (c : Dev nD) (t : Fin cfg1.N) (k j : Fin 128) : iblk1 V c 1 t (ix2 k j) = wts2 V c (ix2 k j) := by
  show V c main_arg4 (((cfg1.win 1).blk t).view.emb (ix2 k j)) = V c main_arg4 (ix2 k j)
  refine congrArg (V c main_arg4) ?_
  obtain ⟨-, -, e2, e3, -⟩ := idx2 t
  funext a; apply Fin.ext
  match a with
  | ⟨0, _⟩ => show win1_1.index t (0 : Fin 2) * 128 + 1 * k.val = k.val; omega
  | ⟨1, _⟩ => show win1_1.index t (1 : Fin 2) * 128 + 1 * j.val = j.val; omega

/-- Every point's bias block is the whole bias. -/
theorem bias2_read (c : Dev nD) (t : Fin cfg1.N) (j : Fin 128) : iblk1 V c 2 t (ix1 j) = bias2 V c (ix1 j) := by
  show V c main_arg5 (((cfg1.win 2).blk t).view.emb (ix1 j)) = V c main_arg5 (ix1 j)
  refine congrArg (V c main_arg5) ?_
  obtain ⟨-, -, -, -, e4, -⟩ := idx2 t
  funext a; apply Fin.ext
  match a with
  | ⟨0, _⟩ => show win1_2.index t (0 : Fin 1) * 128 + 1 * j.val = j.val; omega

/-- What point `t` writes back is its row block of the layer of the entry arrays. -/
theorem flushed2 (c : Dev nD) (t : Fin cfg1.N) :
    (dat1 V c).flushed 3 t
      = ((cfg1.win 3).blk t).view.read (Elt Ideal) (Cert.GraphConv.dense (feat2 V c) (wts2 V c) (bias2 V c)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S128x128) zero2, View.ld_unit_zero (S := S128) zero1]
  funext y
  obtain ⟨p, j, rfl⟩ : ∃ (p : Fin 5000) (j : Fin 128), y = ix2 p j := ⟨y 0, y 1, eq_ix2 y⟩
  have ht : t.val < 10 := lt_of_lt_of_eq t.isLt N_1
  obtain ⟨-, -, -, -, -, e5, e6⟩ := idx2 t
  have hemb : ((cfg1.win 3).blk t).view.emb (ix2 p j) = ix2 (⟨t.val * 5000 + p.val, by have := p.isLt; omega⟩ : Fin 50000) j := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * j.val = j.val; omega
  show k1_pay1 (F := Ideal) (iblk1 V c 0 t) (iblk1 V c 1 t) (iblk1 V c 2 t) (ix2 p j)
      = Cert.GraphConv.dense (feat2 V c) (wts2 V c) (bias2 V c) (((cfg1.win 3).blk t).view.emb (ix2 p j))
  rw [hemb, Cert.GraphConv.dense_apply]
  refine (Cert.KernelIdeal.DenseBlock.pay_layer2_apply (iblk1 V c 0 t) (iblk1 V c 1 t) (iblk1 V c 2 t) p j).trans ?_
  rw [bias2_read V c t j]
  refine congrArg (· + _) (Finset.sum_congr rfl fun k _ => ?_)
  rw [feat2_read V c t p k ⟨t.val * 5000 + p.val, by have := p.isLt; omega⟩ rfl, wts2_read V c t k j]

/-- An index of the output array is in point `t`'s block iff its row is among the block's rows. -/
theorem mem_blk2 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- The ten row blocks cover the output array. -/
theorem cover2 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, by rw [show cfg1.N = 10 from N_1]; omega⟩, flush1_3 _, ?_⟩
  rw [mem_blk2]
  obtain ⟨-, -, -, -, -, e5, e6⟩ := idx2 ⟨(i 0).val / 5000, by rw [show cfg1.N = 10 from N_1]; omega⟩
  intro a
  match a with
  | ⟨0, _⟩ => show win1_3.index _ (0 : Fin 2) * 5000 ≤ (i 0).val ∧ (i 0).val < win1_3.index _ (0 : Fin 2) * 5000 + 5000; rw [e5]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e6]; omega

/-- The second region's output array after its run. -/
theorem final2 (c : Dev nD) :
    (dat1 V c).arrAt 3 cfg1.N = Cert.GraphConv.dense (feat2 V c) (wts2 V c) (bias2 V c) :=
  (dat1 V c).arrAt_eq_of_cover 3 (Cert.GraphConv.dense (feat2 V c) (wts2 V c) (bias2 V c)) (fun t _ => flushed2 V c t) (cover2)

/-! ## The first layer's region -/

/-- The arrays the first region is entered with, at their literal types. -/
abbrev feat1 (c : Dev nD) : FVec Ideal S50000x128 .f32 := V c main_v31
abbrev wts1 (c : Dev nD) : FVec Ideal S128x128 .f32 := V c main_arg2
abbrev bias1 (c : Dev nD) : FVec Ideal S128 .f32 := V c main_arg3

/-- The index maps over the grid: the row-block index of the features and of the output is the point, every other
    block index is zero. -/
theorem idx1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of point `t`'s feature block is row `5000·t + p` of the array. -/
theorem feat1_read (c : Dev nD) (t : Fin cfg0.N) (p : Fin 5000) (k : Fin 128) (r : Fin 50000) (hr : r.val = t.val * 5000 + p.val) :
    iblk0 V c 0 t (ix2 p k) = feat1 V c (ix2 r k) := by
  show V c main_v31 (((cfg0.win 0).blk t).view.emb (ix2 p k)) = V c main_v31 (ix2 r k)
  refine congrArg (V c main_v31) ?_
  obtain ⟨e0, e1, -⟩ := idx1 t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Every point's weight block is the whole matrix. -/
theorem wts1_read (c : Dev nD) (t : Fin cfg0.N) (k j : Fin 128) : iblk0 V c 1 t (ix2 k j) = wts1 V c (ix2 k j) := by
  show V c main_arg2 (((cfg0.win 1).blk t).view.emb (ix2 k j)) = V c main_arg2 (ix2 k j)
  refine congrArg (V c main_arg2) ?_
  obtain ⟨-, -, e2, e3, -⟩ := idx1 t
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- Every point's bias block is the whole bias. -/
theorem bias1_read (c : Dev nD) (t : Fin cfg0.N) (j : Fin 128) : iblk0 V c 2 t (ix1 j) = bias1 V c (ix1 j) := by
  show V c main_arg3 (((cfg0.win 2).blk t).view.emb (ix1 j)) = V c main_arg3 (ix1 j)
  refine congrArg (V c main_arg3) ?_
  obtain ⟨-, -, -, -, e4, -⟩ := idx1 t
  funext a; apply Fin.ext
  match a with
  | ⟨0, _⟩ => show win0_2.index t (0 : Fin 1) * 128 + 1 * j.val = j.val; omega

/-- What point `t` writes back is its row block of the rectified layer of the entry arrays. -/
theorem flushed1 (c : Dev nD) (t : Fin cfg0.N) :
    (dat0 V c).flushed 3 t
      = ((cfg0.win 3).blk t).view.read (Elt Ideal) (Cert.GraphConv.relu (Cert.GraphConv.dense (feat1 V c) (wts1 V c) (bias1 V c))) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2, View.ld_unit_zero (S := S128) zero1]
  funext y
  obtain ⟨p, j, rfl⟩ : ∃ (p : Fin 5000) (j : Fin 128), y = ix2 p j := ⟨y 0, y 1, eq_ix2 y⟩
  have ht : t.val < 10 := lt_of_lt_of_eq t.isLt N_0
  obtain ⟨-, -, -, -, -, e5, e6⟩ := idx1 t
  have hemb : ((cfg0.win 3).blk t).view.emb (ix2 p j) = ix2 (⟨t.val * 5000 + p.val, by have := p.isLt; omega⟩ : Fin 50000) j := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * j.val = j.val; omega
  show k0_pay1 (F := Ideal) (iblk0 V c 0 t) (iblk0 V c 1 t) (iblk0 V c 2 t) (ix2 p j)
      = Cert.GraphConv.relu (Cert.GraphConv.dense (feat1 V c) (wts1 V c) (bias1 V c)) (((cfg0.win 3).blk t).view.emb (ix2 p j))
  rw [hemb, Cert.GraphConv.relu_apply, Cert.GraphConv.dense_apply]
  refine (Cert.KernelIdeal.DenseBlock.pay_layer1_apply (iblk0 V c 0 t) (iblk0 V c 1 t) (iblk0 V c 2 t) p j).trans ?_
  rw [bias1_read V c t j]
  refine congrArg (max · _) (congrArg (· + _) (Finset.sum_congr rfl fun k _ => ?_))
  rw [feat1_read V c t p k ⟨t.val * 5000 + p.val, by have := p.isLt; omega⟩ rfl, wts1_read V c t k j]

/-- An index of the output array is in point `t`'s block iff its row is among the block's rows. -/
theorem mem_blk1 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- The ten row blocks cover the output array. -/
theorem cover1 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by rw [show cfg0.N = 10 from N_0]; omega⟩, flush0_3 _, ?_⟩
  rw [mem_blk1]
  obtain ⟨-, -, -, -, -, e5, e6⟩ := idx1 ⟨(i 0).val / 5000, by rw [show cfg0.N = 10 from N_0]; omega⟩
  intro a
  match a with
  | ⟨0, _⟩ => show win0_3.index _ (0 : Fin 2) * 5000 ≤ (i 0).val ∧ (i 0).val < win0_3.index _ (0 : Fin 2) * 5000 + 5000; rw [e5]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e6]; omega

/-- The first region's output array after its run. -/
theorem final1 (c : Dev nD) :
    (dat0 V c).arrAt 3 cfg0.N = Cert.GraphConv.relu (Cert.GraphConv.dense (feat1 V c) (wts1 V c) (bias1 V c)) :=
  (dat0 V c).arrAt_eq_of_cover 3 (Cert.GraphConv.relu (Cert.GraphConv.dense (feat1 V c) (wts1 V c) (bias1 V c))) (fun t _ => flushed1 V c t) (cover1)

end Cert.KernelIdeal.Layers

end
-- ==== Proof.KernelValue.lean ====
/-
  The kernel program's result array is the specification's function of the arguments.

  At the first region's exit its output holds the rectified dense layer of the first aggregate (the region's value,
  at the entry contents the host fold gives); at the second region's entry the host has aggregated that output with
  the same norms; at the second region's exit the result buffer holds the dense layer of the second aggregate.
-/
import proofs.«115925_j180388626680_1_alg».proof.Proof.HostEntry
import proofs.«115925_j180388626680_1_alg».proof.Proof.Layers
import proofs.«115925_j180388626680_1_alg».proof.Proof.KernelRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.GraphConv (dense relu agg normOf twoLayers)

variable (m : (ℓ : Loc nD τ sig) → Buf (Elt Ideal) ℓ) (ρ : Dev nD → PrngReg)

/-- The first region's feature array at its entry: the first aggregate, of the input features. -/
theorem entry1_feat (c : Dev nD) : W5 m ρ c (Proc.devRef .tc main_v31)
    = agg (m ((c : Thread nD τ).loc main_arg0)) (normOf (m ((c : Thread nD τ).loc main_arg6))) (normOf (m ((c : Thread nD τ).loc main_arg7)))
        (m ((c : Thread nD τ).loc main_arg1)) (m ((c : Thread nD τ).loc main_arg6)) (m ((c : Thread nD τ).loc main_arg7)) := by
  have e0 : W4 m ρ c (Proc.devRef .tc main_arg0) = m ((c : Thread nD τ).loc main_arg0) :=
    (stretchA_arg0 (W4 m ρ c)).symm.trans (entry1_arg0 m ρ c)
  have e1 : W4 m ρ c (Proc.devRef .tc main_arg1) = m ((c : Thread nD τ).loc main_arg1) :=
    (stretchA_arg1 (W4 m ρ c)).symm.trans (entry1_arg1 m ρ c)
  have e6 : W4 m ρ c (Proc.devRef .tc main_arg6) = m ((c : Thread nD τ).loc main_arg6) :=
    (stretchA_arg6 (W4 m ρ c)).symm.trans (entry1_arg6 m ρ c)
  have e7 : W4 m ρ c (Proc.devRef .tc main_arg7) = m ((c : Thread nD τ).loc main_arg7) :=
    (stretchA_arg7 (W4 m ρ c)).symm.trans (entry1_arg7 m ρ c)
  have ens : W4 m ρ c (Proc.devRef .tc main_v9) = normOfK (m ((c : Thread nD τ).loc main_arg6)) :=
    (stretchA_v9 (W4 m ρ c)).symm.trans (entry1_ns m ρ c)
  have end' : Host.powf (W4 m ρ c (Proc.devRef .tc main_v10)) (broadcastInDim S50000 ![] bcast_S_S50000 (constant (F := Ideal) S_ .f32 0xBF000000#32))
      = normOfK (m ((c : Thread nD τ).loc main_arg7)) :=
    (stretchA_nd (W4 m ρ c)).symm.trans (entry1_nd m ρ c)
  refine (stretchA_feat (W4 m ρ c)).trans ?_
  rw [e0, e1, e6, e7, ens, end', aggK_eq, normOfK_eq, normOfK_eq]

/-- The first region's output at its exit: the rectified first layer of the input features. -/
theorem exit1 (c : Dev nD) : W6 m ρ c (Proc.devRef .tc main_v32)
    = relu (dense (agg (m ((c : Thread nD τ).loc main_arg0)) (normOf (m ((c : Thread nD τ).loc main_arg6))) (normOf (m ((c : Thread nD τ).loc main_arg7)))
        (m ((c : Thread nD τ).loc main_arg1)) (m ((c : Thread nD τ).loc main_arg6)) (m ((c : Thread nD τ).loc main_arg7)))
        (m ((c : Thread nD τ).loc main_arg2)) (m ((c : Thread nD τ).loc main_arg3))) := by
  refine ((W6_arr m ρ c 3).trans (Cert.KernelIdeal.Layers.final1 (V5 m ρ) c)).trans ?_
  show relu (dense (W5 m ρ c (Proc.devRef .tc main_v31)) (W5 m ρ c (Proc.devRef .tc main_arg2)) (W5 m ρ c (Proc.devRef .tc main_arg3))) = _
  rw [entry1_feat, entry1_arg2, entry1_arg3]

/-- The second region's feature array at its entry: the aggregate of the first region's output. -/
theorem entry2_feat (c : Dev nD) : W7 m ρ c (Proc.devRef .tc main_v51)
    = agg (W6 m ρ c (Proc.devRef .tc main_v32)) (normOf (m ((c : Thread nD τ).loc main_arg6))) (normOf (m ((c : Thread nD τ).loc main_arg7)))
        (m ((c : Thread nD τ).loc main_arg1)) (m ((c : Thread nD τ).loc main_arg6)) (m ((c : Thread nD τ).loc main_arg7)) := by
  refine (stretchB_feat (W6 m ρ c)).trans ?_
  rw [W6_of_ne m ρ c main_v9 (by decide), W6_of_ne m ρ c main_v12 (by decide),
    W6_of_ne m ρ c main_arg1 (by decide), W6_of_ne m ρ c main_arg6 (by decide), W6_of_ne m ρ c main_arg7 (by decide),
    entry1_ns, entry1_nd, entry1_arg1, entry1_arg6, entry1_arg7, aggK_eq, normOfK_eq, normOfK_eq]

/-- THE RESULT BUFFER at the last boundary: the two layers of the arguments. -/
theorem result_eq (c : Dev nD) : W8 m ρ c (Proc.devRef .tc main_v52)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W8_arr m ρ c 3).trans (Cert.KernelIdeal.Layers.final2 (V7 m ρ) c)).trans ?_
  show dense (W7 m ρ c (Proc.devRef .tc main_v51)) (W7 m ρ c (Proc.devRef .tc main_arg4)) (W7 m ρ c (Proc.devRef .tc main_arg5)) = _
  rw [entry2_feat, entry2_arg4, entry2_arg5, exit1]
  rfl

/-- The kernel program's run with the result named: every weakly fair execution terminates with the result buffer at
    the two layers of the arguments, the arguments unchanged. -/
theorem run : θ_run defs (onTc (τ := τ) (main (F := Ideal))) ⟨m, fun _ => 0, ρ⟩ (fun r => ∀ c : Dev nD,
      r.2.mem ((c.tc : Thread nD τ).loc main_v52)
        = twoLayers (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.RunValue.run_result m ρ)

end Cert.KernelIdeal.Chain

end
-- ==== Proof.lean ====
/-
  The graph-convolution kernel against its jnp reference, over the extended reals.

  Both programs compute two graph-convolution layers over 50000 nodes, 600000 weighted edges and 128 features:
  `h ↦ (agg h) · W + b`, the first layer followed by the maximum with zero, where `agg` scales the rows of `h` by a
  source-side degree norm, gathers them at the edges' sources, weights them, scatter-adds them at the edges'
  destinations and scales by the destination-side degree norm. The host operations that compute the norms and `agg`
  are the same in both programs, operation for operation, so they are carried as opaque functions. The programs differ
  only in the dense step `a · W + b`: the reference takes one host matrix product of the whole [50000, 128] array and
  adds the bias laid along the rows; the kernel runs a ten-point grid whose point `t` multiplies rows
  `5000·t … 5000·t + 4999` by `W` on the matrix unit (after casts to a narrower format, which are the identity on the
  extended reals, and into a zero accumulator), adds the bias row and, in the first layer, takes the maximum with
  zero. Entry by entry both are `(∑ k, a (r, k) · W (k, j)) + b j`, a sum over the same 128 terms; the ten row blocks
  cover the array. No law of arithmetic beyond `0 + x = x` is used, so the finiteness precondition is not opened.

  The three frames are the generated ones (the reference's is its generated run with the result dropped). The ideal
  pass's ledger is empty, so the conjunct relating the kernel to its idealization is `True`.
-/
import proofs.«115925_j180388626680_1_alg».proof.Defs
import proofs.«115925_j180388626680_1_alg».proof.Proof.Gen.Kernel
import proofs.«115925_j180388626680_1_alg».proof.Proof.Gen.Kernel.Skeleton
import proofs.«115925_j180388626680_1_alg».proof.Proof.Gen.Kernel.Launch
import proofs.«115925_j180388626680_1_alg».proof.Proof.Gen.Kernel.Points
import proofs.«115925_j180388626680_1_alg».proof.Proof.Gen.Kernel.Frame
import proofs.«115925_j180388626680_1_alg».proof.Proof.Gen.KernelIdeal
import proofs.«115925_j180388626680_1_alg».proof.Proof.Gen.KernelIdeal.Skeleton
import proofs.«115925_j180388626680_1_alg».proof.Proof.Gen.KernelIdeal.Launch
import proofs.«115925_j180388626680_1_alg».proof.Proof.Gen.KernelIdeal.Points
import proofs.«115925_j180388626680_1_alg».proof.Proof.Gen.KernelIdeal.Frame
import proofs.«115925_j180388626680_1_alg».proof.Proof.Gen.ReferenceIdeal
import proofs.«115925_j180388626680_1_alg».proof.Proof.Gen.Pre_finite_inputs
import proofs.«115925_j180388626680_1_alg».proof.Proof.Gen.ReferenceIdeal.Run
import proofs.«115925_j180388626680_1_alg».proof.Proof.Gen.ReferenceIdeal.Read
import proofs.«115925_j180388626680_1_alg».proof.Proof.Spec
import proofs.«115925_j180388626680_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result array at the two layers of the
    arguments: the kernel by its run read through the host folds and the two regions, the reference by its run's
    term, which is the same composition of operations. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v59_eq, h0, h1, h2, h3, h4, h5, h6, h7]
  exact Cert.GraphConv.reference_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
